-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S1x4096 : Shape := ⟨2, ![1, 4096]⟩
abbrev S512x4096 : Shape := ⟨2, ![512, 4096]⟩
abbrev S1024x4096 : Shape := ⟨2, ![1024, 4096]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 50
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S8192x4096, .bf16⟩
  | .hbm, ⟨46, _⟩ => ⟨S4096x4096, .bf16⟩
  | .hbm, ⟨47, _⟩ => ⟨S1x4096, .f32⟩
  | .hbm, ⟨48, _⟩ => ⟨S1x4096, .f32⟩
  | .hbm, ⟨49, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  transposes_S4096x1_S1x4096_1_0 : S4096x1.Transposes [1, 0] S1x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v22) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S1x4096, .f32⟩
  | .hbm, ⟨52, _⟩ => ⟨S8192x4096, .f32⟩
  | .hbm, ⟨53, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  transposes_S4096x1_S1x4096_1_0 : S4096x1.Transposes [1, 0] S1x4096
  bcast_S1x4096_S8192x4096_0_1 : S1x4096.BroadcastsInDim S8192x4096 (![0, 1] : Fin 2 → Fin S8192x4096.rank)
  bcast_S4096_S1x4096_1 : S4096.BroadcastsInDim S1x4096 (![1] : Fin 1 → Fin S1x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The value both programs compute, written once.

  A linear layer on row-quantized operands: from a quantized activation matrix `qx` (8192 × 4096), a quantized
  weight matrix `qw` (4096 × 4096, one row per output channel), the activation rows' scales `sx` (a column),
  the weight rows' scales laid out as a row `swt`, and a bias vector `b`, entry (r, c) of the result is

      (∑ k, qx[r, k] · qw[c, k]) · (sx[r] · swt[c]) + b[c]

  on the extended reals. Nothing here depends on how the five arrays were obtained: both programs build them by the
  same host operations, so the comparison never has to open the quantization itself.
-/
import Idealize.ShloMosaic.PureOps.Ideal
import Idealize.ShloMosaic.Lib.ValueIdx

noncomputable section

namespace Cert.QuantLinear

open Idealize.ShloMosaic Idealize.ShloMosaic.ValueIdx

/-- Entry `i = (r, c)` of the dequantized product plus bias: the contraction over the 4096 input features of
    row `r` of `qx` against row `c` of `qw`, times the product of the two rows' scales, plus `b[c]`. -/
def out (qx : (⟨2, ![8192, 4096]⟩ : Shape).Idx → EReal) (qw : (⟨2, ![4096, 4096]⟩ : Shape).Idx → EReal)
    (sx : (⟨2, ![8192, 1]⟩ : Shape).Idx → EReal) (swt : (⟨2, ![1, 4096]⟩ : Shape).Idx → EReal)
    (b : (⟨1, ![4096]⟩ : Shape).Idx → EReal) : (⟨2, ![8192, 4096]⟩ : Shape).Idx → EReal :=
  fun i => (∑ k : Fin 4096, qx (ix2 (i 0 : Fin 8192) k) * qw (ix2 (i 1 : Fin 4096) k))
    * (sx (ix2 (i 0 : Fin 8192) (0 : Fin 1)) * swt (ix2 (0 : Fin 1) (i 1 : Fin 4096))) + b (ix1 (i 1 : Fin 4096))

end Cert.QuantLinear

end
-- ==== Proof.Body.lean ====
/-
  One grid point's arithmetic, read at an entry of the output block.

  The body loads a 512 × 4096 block of quantized activations, a 1024 × 4096 block of quantized weights, a 512 × 1
  column of activation scales, a 1 × 1024 row of weight scales and a 1 × 1024 row of bias, and stores

      matmul(x, wᵀ) · (column broadcast · row broadcast) + row broadcast.

  At entry (p, q) of the 512 × 1024 block this is (∑ k, x[p, k] · w[q, k]) · (s[p, 0] · t[0, q]) + b[0, q]: the product
  contracts the last axis of both operands into a zero accumulator, so it is the plain sum; a column broadcast reads
  its row's entry, a row broadcast its column's.
-/
import proofs.«129425_j30081950941534_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The block product at an entry -/

/-- The left operand's index keeps the output's row on its axis 0 … -/
theorem lhs_axis0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- … and runs the contraction's one coordinate along its axis 1. -/
theorem lhs_axis1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- The right operand's index takes the output's COLUMN on its axis 0 (the weights are stored one row per output
    channel) … -/
theorem rhs_axis0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- … and the contraction's coordinate along its axis 1. -/
theorem rhs_axis1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The block product into the zero accumulator, at entry (p, q): row `p` of the left block against row `q` of the
    right block, summed over the 4096 shared positions. -/
theorem matmul_at (x : FVec Ideal S512x4096 .bf16) (w : FVec Ideal S1024x4096 .bf16) (p : Fin 512) (q : Fin 1024) :
    matmul dot_S512x4096_S1024x4096_S512x1024_1_1_0_0_n_n none x w (constant (F := Ideal) S512x1024 .f32 0x00000000#32) (ix2 p q)
      = ∑ k : Fin 4096, x (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-! ## The two broadcasts at an entry -/

/-- A 512 × 1 column broadcast across 1024 columns reads its row's one entry. -/
theorem bcast_col_at {α : Type} (s : S512x1.Idx → α) (h : S512x1.Broadcasts S512x1024) (p : Fin 512) (q : Fin 1024) :
    broadcastTo S512x1024 s h (ix2 p q) = s (ix2 p (0 : Fin 1)) :=
  broadcastTo_apply s h (ix2 p q) (ix2 p (0 : Fin 1)) (fun a => match a with
    | ⟨0, _⟩ => by show p.val = if (512 : Nat) = 1 then 0 else p.val; rw [if_neg (by decide)]
    | ⟨1, _⟩ => by show 0 = if (1 : Nat) = 1 then 0 else q.val; rw [if_pos rfl])

/-- A 1 × 1024 row broadcast down 512 rows reads its column's one entry. -/
theorem bcast_row_at {α : Type} (t : S1x1024.Idx → α) (h : S1x1024.Broadcasts S512x1024) (p : Fin 512) (q : Fin 1024) :
    broadcastTo S512x1024 t h (ix2 p q) = t (ix2 (0 : Fin 1) q) :=
  broadcastTo_apply t h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The stored value at an entry -/

/-- What the body stores, at entry (p, q) of the block: the contraction times the two scales plus the bias. -/
theorem pay_at (x : FVec Ideal S512x4096 .bf16) (w : FVec Ideal S1024x4096 .bf16) (s : FVec Ideal S512x1 .f32)
    (t b : FVec Ideal S1x1024 .f32) (p : Fin 512) (q : Fin 1024) :
    k0_pay1 (F := Ideal) x w s t b (ix2 p q)
      = (∑ k : Fin 4096, x (ix2 p k) * w (ix2 q k)) * (s (ix2 p (0 : Fin 1)) * t (ix2 (0 : Fin 1) q)) + b (ix2 (0 : Fin 1) q) := by
  unfold k0_pay1
  simp only [shapeCast_self]
  rw [addf_apply, mulf_apply, mulf_apply, matmul_at, bcast_col_at, bcast_row_at, bcast_row_at]

end Cert.KernelIdeal.Body

end
-- ==== Proof.Blocks.lean ====
/-
  From the 64 blocks to the whole result array.

  The grid is 16 × 4: point (a, b) reads rows 512a … 512a + 511 of the quantized activations and of their scales,
  rows 1024b … 1024b + 1023 of the quantized weights, columns 1024b … 1024b + 1023 of the weight-scale row and of the
  bias row, and writes block (a, b) of the 8192 × 4096 result. An entry of a block is the body's value at the
  block's loads (Body.lean); read through the blocks' offsets those loads are the rows and columns of the whole
  arrays that the specification names for that entry of the result. The 64 blocks tile the result, so the array
  ends holding the specification everywhere.
-/
import proofs.«129425_j30081950941534_1_alg».proof.Proof.Gen.KernelIdeal.Value
import proofs.«129425_j30081950941534_1_alg».proof.Proof.Body
import proofs.«129425_j30081950941534_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The staged arrays and the result they determine -/

/-- The five arrays the region stages, as it finds them: quantized activations and weights, the activation
    scales (a column), the weight scales and the bias (rows). -/
abbrev qx (c : Dev nD) : S8192x4096.Idx → EReal := V m c main_v22
abbrev qw (c : Dev nD) : S4096x4096.Idx → EReal := V m c main_v23
abbrev sx (c : Dev nD) : S8192x1.Idx → EReal := V m c main_v6
abbrev swt (c : Dev nD) : S1x4096.Idx → EReal := V m c main_v24
abbrev brow (c : Dev nD) : S1x4096.Idx → EReal := V m c main_v25

/-- The result array: the specification at those arrays, the bias read off its row. -/
abbrev result (c : Dev nD) : S8192x4096.Idx → EReal :=
  Cert.QuantLinear.out (qx m c) (qw m c) (sx m c) (swt m c) (fun j => brow m c (ix2 (0 : Fin 1) (j 0 : Fin 4096)))

theorem hz : (![0, 0] : Fin 2 → Nat) = fun _ => 0 := funext fun a => by fin_cases a <;> rfl

/-! ## Where each window's block sits -/

/-- The block indices over the grid: the activations and their scales move with the output's block row, the
    weights, their scales and the bias with its block column, and no input has a second block along its other
    axis; the output's block indices stay inside 16 × 4. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every block of the 16 × 4 tiling is some point's. -/
theorem idx_onto : ∀ (a : Fin 16) (b : Fin 4), ∃ t : Fin cfg0.N, win0_5.index t = ![a.val, b.val] :=
  (by decide +kernel : ∀ (a : Fin 16) (b : Fin 4), ∃ t : Fin grid0.N, win0_5.index t = ![a.val, b.val])

/-! ## A block's entry is the array's entry at the block's offset -/

theorem qx_blk (c : Dev nD) (t : Fin cfg0.N) (p : Fin 512) (k : Fin 4096) (i : S8192x4096.Idx)
    (h0 : (i 0).val = win0_0.index t (0 : Fin 2) * 512 + p.val) (h1 : (i 1).val = win0_0.index t (1 : Fin 2) * 4096 + k.val) :
    (iblk m c 0 t : S512x4096.Idx → EReal) (ix2 p k) = qx m c i := by
  show V m c main_v22 (((cfg0.win 0).blk t).view.emb (ix2 p k)) = V m c main_v22 i
  refine congrArg _ (funext fun a => Fin.ext ?_)
  match a with
  | ⟨0, _⟩ => show win0_0.index t (0 : Fin 2) * 512 + 1 * p.val = (i 0).val; omega
  | ⟨1, _⟩ => show win0_0.index t (1 : Fin 2) * 4096 + 1 * k.val = (i 1).val; omega

theorem qw_blk (c : Dev nD) (t : Fin cfg0.N) (q : Fin 1024) (k : Fin 4096) (i : S4096x4096.Idx)
    (h0 : (i 0).val = win0_1.index t (0 : Fin 2) * 1024 + q.val) (h1 : (i 1).val = win0_1.index t (1 : Fin 2) * 4096 + k.val) :
    (iblk m c 1 t : S1024x4096.Idx → EReal) (ix2 q k) = qw m c i := by
  show V m c main_v23 (((cfg0.win 1).blk t).view.emb (ix2 q k)) = V m c main_v23 i
  refine congrArg _ (funext fun a => Fin.ext ?_)
  match a with
  | ⟨0, _⟩ => show win0_1.index t (0 : Fin 2) * 1024 + 1 * q.val = (i 0).val; omega
  | ⟨1, _⟩ => show win0_1.index t (1 : Fin 2) * 4096 + 1 * k.val = (i 1).val; omega

theorem sx_blk (c : Dev nD) (t : Fin cfg0.N) (p : Fin 512) (z : Fin 1) (i : S8192x1.Idx)
    (h0 : (i 0).val = win0_2.index t (0 : Fin 2) * 512 + p.val) (h1 : (i 1).val = win0_2.index t (1 : Fin 2) * 1 + z.val) :
    (iblk m c 2 t : S512x1.Idx → EReal) (ix2 p z) = sx m c i := by
  show V m c main_v6 (((cfg0.win 2).blk t).view.emb (ix2 p z)) = V m c main_v6 i
  refine congrArg _ (funext fun a => Fin.ext ?_)
  match a with
  | ⟨0, _⟩ => show win0_2.index t (0 : Fin 2) * 512 + 1 * p.val = (i 0).val; omega
  | ⟨1, _⟩ => show win0_2.index t (1 : Fin 2) * 1 + 1 * z.val = (i 1).val; omega

theorem swt_blk (c : Dev nD) (t : Fin cfg0.N) (z : Fin 1) (q : Fin 1024) (i : S1x4096.Idx)
    (h0 : (i 0).val = win0_3.index t (0 : Fin 2) * 1 + z.val) (h1 : (i 1).val = win0_3.index t (1 : Fin 2) * 1024 + q.val) :
    (iblk m c 3 t : S1x1024.Idx → EReal) (ix2 z q) = swt m c i := by
  show V m c main_v24 (((cfg0.win 3).blk t).view.emb (ix2 z q)) = V m c main_v24 i
  refine congrArg _ (funext fun a => Fin.ext ?_)
  match a with
  | ⟨0, _⟩ => show win0_3.index t (0 : Fin 2) * 1 + 1 * z.val = (i 0).val; omega
  | ⟨1, _⟩ => show win0_3.index t (1 : Fin 2) * 1024 + 1 * q.val = (i 1).val; omega

theorem brow_blk (c : Dev nD) (t : Fin cfg0.N) (z : Fin 1) (q : Fin 1024) (i : S1x4096.Idx)
    (h0 : (i 0).val = win0_4.index t (0 : Fin 2) * 1 + z.val) (h1 : (i 1).val = win0_4.index t (1 : Fin 2) * 1024 + q.val) :
    (iblk m c 4 t : S1x1024.Idx → EReal) (ix2 z q) = brow m c i := by
  show V m c main_v25 (((cfg0.win 4).blk t).view.emb (ix2 z q)) = V m c main_v25 i
  refine congrArg _ (funext fun a => Fin.ext ?_)
  match a with
  | ⟨0, _⟩ => show win0_4.index t (0 : Fin 2) * 1 + 1 * z.val = (i 0).val; omega
  | ⟨1, _⟩ => show win0_4.index t (1 : Fin 2) * 1024 + 1 * q.val = (i 1).val; omega

/-! ## What a point writes back -/

/-- Point `t` writes back block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S512x4096) hz, View.ld_unit_zero (S := S1024x4096) hz,
    View.ld_unit_zero (S := S512x1) hz, View.ld_unit_zero (S := S1x1024) hz]
  obtain ⟨e00, e01, e10, e11, e20, e21, e30, e31, e40, e41, -, -⟩ := idx_facts t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = Cert.QuantLinear.out (qx m c) (qw m c) (sx m c) (swt m c) (fun j => brow m c (ix2 (0 : Fin 1) (j 0 : Fin 4096)))
        (((cfg0.win 5).blk t).view.emb (ix2 p q))
  refine (Body.pay_at _ _ _ _ _ p q).trans ?_
  unfold Cert.QuantLinear.out
  have i0 : ((((cfg0.win 5).blk t).view.emb (ix2 p q)) 0).val = win0_5.index t (0 : Fin 2) * 512 + 1 * p.val := rfl
  have i1 : ((((cfg0.win 5).blk t).view.emb (ix2 p q)) 1).val = win0_5.index t (1 : Fin 2) * 1024 + 1 * q.val := rfl
  refine congrArg₂ (· + ·) (congrArg₂ (· * ·) (Finset.sum_congr rfl fun k _ => congrArg₂ (· * ·) ?_ ?_) (congrArg₂ (· * ·) ?_ ?_)) ?_
  · exact qx_blk m c t p k _ (i0.trans (by omega)) (by show k.val = _; omega)
  · exact qw_blk m c t q k _ (i1.trans (by omega)) (by show k.val = _; omega)
  · exact sx_blk m c t p 0 _ (i0.trans (by omega)) (by show (0 : Nat) = _; omega)
  · exact swt_blk m c t 0 q _ (by show (0 : Nat) = _; omega) (i1.trans (by omega))
  · exact brow_blk m c t 0 q _ (by show (0 : Nat) = _; omega) (i1.trans (by omega))

/-! ## The blocks tile the result -/

/-- An entry is in point `t`'s block exactly when each coordinate is in the block's range on its axis. -/
theorem mem_blk (t : Fin cfg0.N) (i : S8192x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v26).slice (win0_5.rect t)).set ↔ _
  rw [View.set_slice_whole, Rect.mem_set_unit]
  exact Iff.rfl

/-- Entry (r, c) lies in the block of the point whose block indices are (r / 512, c / 1024). -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The array after the run, and the run -/

/-- After the last point the result array holds the specification at the staged arrays. -/
theorem final (c : Dev nD) : (dats m 0 c).arrAt 5 cfg0.N = result m c :=
  (dats m 0 c).arrAt_eq_of_cover 5 (result m c) (fun t _ => flushed_eq m c t) cover

/-- Every fair execution ends with the result array at the specification and the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.Entry.lean ====
/-
  The five arrays the kernel stages, as its region finds them.

  Before the one region the host program quantizes the activations and the weights exactly as the reference does
  (absolute value, row maximum from −∞, floor at 1e-8, division by 127; then divide, round to even, clip to ±127),
  narrows the two quantized matrices to bf16 — the identity on extended reals —, transposes the weight scales to a
  row and reshapes the bias to a row. So each staged array is one of the reference's own stages of the same argument:
  the quantized matrices its %21 and %10, the activation scales its %17, the weight-scale row its %23, and the bias
  row the bias itself under a reshape.
-/
import proofs.«129425_j30081950941534_1_alg».proof.Proof.Gen.KernelIdeal.Frame
import proofs.«129425_j30081950941534_1_alg».proof.Proof.Gen.ReferenceIdeal.Read
import Idealize.ShloMosaic.Lib.StableHlo.Run
import Idealize.ShloMosaic.Lib.Pipeline.Value
import Idealize.ShloMosaic.Lib.ValueIdx

set_option maxRecDepth 8192

noncomputable section

namespace Cert.KernelIdeal.Entry

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The activations, the weights and the bias as launched. -/
abbrev acts (c : Dev nD) : S8192x4096.Idx → EReal := m ((c : Thread nD τ).loc main_arg0)
abbrev wts (c : Dev nD) : S4096x4096.Idx → EReal := m ((c : Thread nD τ).loc main_arg1)
abbrev bias (c : Dev nD) : S4096.Idx → EReal := m ((c : Thread nD τ).loc main_arg2)

/-- The staged quantized activations are the reference's quantized activations. -/
theorem qx_eq (c : Dev nD) :
    (V m c main_v22 : S8192x4096.Idx → EReal) = Cert.ReferenceIdeal.Read.val_main_v21 (F := Ideal) (acts m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The staged quantized weights are the reference's quantized weights. -/
theorem qw_eq (c : Dev nD) :
    (V m c main_v23 : S4096x4096.Idx → EReal) = Cert.ReferenceIdeal.Read.val_main_v10 (F := Ideal) (wts m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The staged activation scales are the reference's. -/
theorem sx_eq (c : Dev nD) :
    (V m c main_v6 : S8192x1.Idx → EReal) = Cert.ReferenceIdeal.Read.val_main_v17 (F := Ideal) (acts m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The staged weight-scale row is the reference's transposed weight scales. -/
theorem swt_eq (c : Dev nD) :
    (V m c main_v24 : S1x4096.Idx → EReal) = Cert.ReferenceIdeal.Read.val_main_v23 (F := Ideal) (wts m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The staged bias row is the bias under the reshape [4096] → [1, 4096]. -/
theorem brow_eq (c : Dev nD) :
    (V m c main_v25 : S1x4096.Idx → EReal) = shapeCast S1x4096 (bias m c) shapeCasts_S4096_S1x4096 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- A vector reshaped to one row reads its own entry at the row's column. -/
theorem row_of_vec_at (b : S4096.Idx → EReal) (h : S4096.ShapeCasts S1x4096) (q : Fin 4096) :
    shapeCast S1x4096 b h (ix2 (0 : Fin 1) q) = b (ix1 q) := by
  refine (shapeCast_addUnit_apply (n := 1) ![4096] b h (ix2 (0 : Fin 1) q)).trans ?_
  refine congrArg b (funext fun a => ?_)
  match a with
  | ⟨0, _⟩ => rfl

end Cert.KernelIdeal.Entry

end
-- ==== Proof.RefAt.lean ====
/-
  The reference's result, read at an entry.

  The reference quantizes the weights and the activations on the host (stages %10 and %21, with the per-row scales
  %6 and %17), contracts them with one `dot_general` over the last axis of both, multiplies by the outer product of
  the scales — the activation scales broadcast along the columns, the weight scales transposed to a row and broadcast
  down the rows — and adds the bias broadcast down the rows. Entry (r, c) is therefore
  (∑ k, qx[r, k] · qw[c, k]) · (sx[r, 0] · swt[0, c]) + bias[c]: the specification, at the reference's own stages.
-/
import proofs.«129425_j30081950941534_1_alg».proof.Proof.Gen.ReferenceIdeal.Read
import proofs.«129425_j30081950941534_1_alg».proof.Proof.Spec

noncomputable section

namespace Cert.ReferenceIdeal.AtEntry

open Cert.ReferenceIdeal Cert.ReferenceIdeal.Read Idealize.ShloMosaic Idealize.ShloMosaic.ValueIdx

/-- The reference's last stage is the specification applied to its quantized operands, its scales and the bias. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v30 (F := Ideal) x0 x1 x2
      = Cert.QuantLinear.out (val_main_v21 (F := Ideal) x0) (val_main_v10 (F := Ideal) x1) (val_main_v17 (F := Ideal) x0)
          (val_main_v23 (F := Ideal) x1) x2 := by
  funext i
  -- the composed index functions of the broadcasts and of the contraction, by coordinates
  have e24 : idx_main_v24 i = ix2 (i 0 : Fin 8192) (0 : Fin 1) :=
    funext fun a => Fin.ext (by match a with | ⟨0, _⟩ => rfl | ⟨1, _⟩ => rfl)
  have e25 : idx_main_v25 i = ix2 (0 : Fin 1) (i 1 : Fin 4096) :=
    funext fun a => Fin.ext (by match a with | ⟨0, _⟩ => rfl | ⟨1, _⟩ => rfl)
  have e28 : idx_main_v28 (idx_main_v29 i) = ix1 (i 1 : Fin 4096) :=
    funext fun a => Fin.ext (by match a with | ⟨0, _⟩ => rfl)
  have el : ∀ k : Fin 4096, lidx_main_v22 i k = ix2 (i 0 : Fin 8192) k :=
    fun k => funext fun a => Fin.ext (by match a with | ⟨0, _⟩ => rfl | ⟨1, _⟩ => rfl)
  have er : ∀ k : Fin 4096, ridx_main_v22 i k = ix2 (i 1 : Fin 4096) k :=
    fun k => funext fun a => Fin.ext (by match a with | ⟨0, _⟩ => rfl | ⟨1, _⟩ => rfl)
  rw [val_main_v30_apply, val_main_v27_apply, val_main_v22_apply, val_main_v26_apply, val_main_v24_apply,
    val_main_v25_apply, val_main_v29_apply, val_main_v28_apply]
  simp only [e24, e25, e28, el, er]
  rfl

end Cert.ReferenceIdeal.AtEntry

end
-- ==== Proof.lean ====
/-
  An int8-style quantized linear layer against its reference, over the extended reals.

  Both programs quantize the activations x (8192 × 4096) and the weights W (4096 × 4096) row by row on the host,
  by the same operations on the same literals: a row's scale is max(max |row|, 1e-8) / 127 and its quantized
  entries are round-to-even(entry / scale) clipped to ±127. The reference then contracts the two quantized matrices
  over their shared last axis, multiplies entry (r, c) by scale_x[r] · scale_W[c] and adds bias[c]. The kernel narrows
  the quantized matrices to bf16 (the identity on extended reals), and on a 16 × 4 grid computes each 512 × 1024
  block of the same expression from a 512-row block of activations and a 1024-row block of weights, the whole
  4096-long contraction inside one block product into a zero accumulator.

  So both results are ONE function of five arrays (Proof/Spec.lean). The kernel's 64 blocks tile it (Proof/Body.lean
  for a block's entry, Proof/Blocks.lean for the tiling); the arrays the kernel stages are the reference's own stages
  of the same arguments (Proof/Entry.lean); and the reference's last stage is that function of its stages
  (Proof/RefAt.lean). No algebraic law beyond 0 + s = s joins the two sides — the contraction is never regrouped and
  the scales are multiplied in the same order — so the finiteness of the inputs is not used.
  The idealization rewrote nothing, so the preservation claim is the trivial proposition; the three frames are the
  generated ones (the reference's is its generated run with the result dropped).
-/
import proofs.«129425_j30081950941534_1_alg».proof.Defs
import proofs.«129425_j30081950941534_1_alg».proof.Proof.Gen.Kernel
import proofs.«129425_j30081950941534_1_alg».proof.Proof.Gen.Kernel.Skeleton
import proofs.«129425_j30081950941534_1_alg».proof.Proof.Gen.Kernel.Launch
import proofs.«129425_j30081950941534_1_alg».proof.Proof.Gen.Kernel.Points
import proofs.«129425_j30081950941534_1_alg».proof.Proof.Gen.Kernel.Frame
import proofs.«129425_j30081950941534_1_alg».proof.Proof.Gen.KernelIdeal
import proofs.«129425_j30081950941534_1_alg».proof.Proof.Gen.KernelIdeal.Skeleton
import proofs.«129425_j30081950941534_1_alg».proof.Proof.Gen.KernelIdeal.Launch
import proofs.«129425_j30081950941534_1_alg».proof.Proof.Gen.KernelIdeal.Points
import proofs.«129425_j30081950941534_1_alg».proof.Proof.Gen.KernelIdeal.Frame
import proofs.«129425_j30081950941534_1_alg».proof.Proof.Gen.ReferenceIdeal
import proofs.«129425_j30081950941534_1_alg».proof.Proof.Gen.KernelIdeal.Value
import proofs.«129425_j30081950941534_1_alg».proof.Proof.Gen.ReferenceIdeal.Run
import proofs.«129425_j30081950941534_1_alg».proof.Proof.Gen.ReferenceIdeal.Read
import proofs.«129425_j30081950941534_1_alg».proof.Proof.Gen.Pre_finite_inputs
import proofs.«129425_j30081950941534_1_alg».proof.Proof.Spec
import proofs.«129425_j30081950941534_1_alg».proof.Proof.Body
import proofs.«129425_j30081950941534_1_alg».proof.Proof.Blocks
import proofs.«129425_j30081950941534_1_alg».proof.Proof.Entry
import proofs.«129425_j30081950941534_1_alg».proof.Proof.RefAt
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's result in the reference's terms -/

/-- The kernel's result array — the specification at the arrays its region stages — is the specification at the
    reference's quantized operands and scales of the same arguments, and at the bias itself: each staged array is
    that stage (Proof/Entry.lean), and the bias row read at column `c` is `bias[c]`. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.Blocks.result m c
      = Cert.QuantLinear.out (Cert.ReferenceIdeal.Read.val_main_v21 (F := Ideal) (Cert.KernelIdeal.Entry.acts m c))
          (Cert.ReferenceIdeal.Read.val_main_v10 (F := Ideal) (Cert.KernelIdeal.Entry.wts m c))
          (Cert.ReferenceIdeal.Read.val_main_v17 (F := Ideal) (Cert.KernelIdeal.Entry.acts m c))
          (Cert.ReferenceIdeal.Read.val_main_v23 (F := Ideal) (Cert.KernelIdeal.Entry.wts m c))
          (Cert.KernelIdeal.Entry.bias m c) := by
  have hb : (fun j : Cert.KernelIdeal.S4096.Idx =>
      (Cert.KernelIdeal.Gen.V m c Cert.KernelIdeal.main_v25 : Cert.KernelIdeal.S1x4096.Idx → EReal) (ix2 (0 : Fin 1) (j 0 : Fin 4096)))
      = Cert.KernelIdeal.Entry.bias m c := by
    funext j
    rw [Cert.KernelIdeal.Entry.brow_eq]
    exact (Cert.KernelIdeal.Entry.row_of_vec_at (Cert.KernelIdeal.Entry.bias m c) _ (j 0 : Fin 4096)).trans
      (congrArg (Cert.KernelIdeal.Entry.bias m c) (eq_ix1 j).symm)
  show Cert.QuantLinear.out (Cert.KernelIdeal.Gen.V m c Cert.KernelIdeal.main_v22 : Cert.KernelIdeal.S8192x4096.Idx → EReal)
    (Cert.KernelIdeal.Gen.V m c Cert.KernelIdeal.main_v23 : Cert.KernelIdeal.S4096x4096.Idx → EReal)
    (Cert.KernelIdeal.Gen.V m c Cert.KernelIdeal.main_v6 : Cert.KernelIdeal.S8192x1.Idx → EReal)
    (Cert.KernelIdeal.Gen.V m c Cert.KernelIdeal.main_v24 : Cert.KernelIdeal.S1x4096.Idx → EReal) _ = _
  rw [hb, Cert.KernelIdeal.Entry.qx_eq, Cert.KernelIdeal.Entry.qw_eq, Cert.KernelIdeal.Entry.sx_eq, Cert.KernelIdeal.Entry.swt_eq]

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, W and bias, the kernel's result array and the reference's last stage both end at
    the specification applied to the reference's stages of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.AtEntry.result_eq,
    (hagree c).1, (hagree c).2.1, (hagree c).2.2]
  exact (kernel_result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
